-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S64 : Shape := ⟨1, ![64]⟩
abbrev S1600000 : Shape := ⟨1, ![1600000]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S1600000x64 .f32) (main_arg1 : FVec F S64 .f32) (main_arg2 : FVec F S64 .f32) (main_arg3 : IVec S1600000 32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1600000x64 : Shape := ⟨2, ![1600000, 64]⟩
abbrev S64 : Shape := ⟨1, ![64]⟩
abbrev S1600000 : Shape := ⟨1, ![1600000]⟩
abbrev S1600000x1 : Shape := ⟨2, ![1600000, 1]⟩
abbrev S16000x64 : Shape := ⟨2, ![16000, 64]⟩
abbrev S16000x1 : Shape := ⟨2, ![16000, 1]⟩
abbrev S16000 : Shape := ⟨1, ![16000]⟩
abbrev S_ : Shape := ⟨0, ![]⟩
abbrev S50000 : Shape := ⟨1, ![50000]⟩
abbrev S1x64 : Shape := ⟨2, ![1, 64]⟩

abbrev nBuf : Space → Nat
  | .hbm => 64
  | .vmem => 16
  | .smem => 0
  | _ => 0

abbrev bufTy : (tb : Table) → Fin (tcTables nBuf tb) → BufTy
  | .hbm, ⟨0, _⟩ => ⟨S1600000x64, .f32⟩
  | .hbm, ⟨1, _⟩ => ⟨S64, .f32⟩
  | .hbm, ⟨2, _⟩ => ⟨S64, .f32⟩
  | .hbm, ⟨3, _⟩ => ⟨S1600000, .i32⟩
  | .hbm, ⟨4, _⟩ => ⟨S1600000x1, .f32⟩
  | .hbm, ⟨5, _⟩ => ⟨S1600000x1, .f32⟩
  | .hbm, ⟨6, _⟩ => ⟨S1600000, .f32⟩
  | .hbm, ⟨7, _⟩ => ⟨S1600000, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000, .f32⟩
  | .hbm, ⟨62, _⟩ => ⟨S1600000x1, .f32⟩
  | .hbm, ⟨63, _⟩ => ⟨S1600000x64, .f32⟩
  | .local _ .vmem, ⟨0, _⟩ => ⟨S16000x64, .f32⟩
  | .local _ .vmem, ⟨1, _⟩ => ⟨S16000x64, .f32⟩
  | .local _ .vmem, ⟨2, _⟩ => ⟨S16000x1, .f32⟩
  | .local _ .vmem, ⟨3, _⟩ => ⟨S16000x1, .f32⟩
  | .local _ .vmem, ⟨4, _⟩ => ⟨S16000x1, .f32⟩
  | .local _ .vmem, ⟨5, _⟩ => ⟨S16000x1, .f32⟩
  | .local _ .vmem, ⟨6, _⟩ => ⟨S16000x64, .f32⟩
  | .local _ .vmem, ⟨7, _⟩ => ⟨S16000x64, .f32⟩
  | .local _ .vmem, ⟨8, _⟩ => ⟨S16000x1, .f32⟩
  | .local _ .vmem, ⟨9, _⟩ => ⟨S16000x1, .f32⟩
  | .local _ .vmem, ⟨10, _⟩ => ⟨S16000x1, .f32⟩
  | .local _ .vmem, ⟨11, _⟩ => ⟨S16000x1, .f32⟩
  | .local _ .vmem, ⟨12, _⟩ => ⟨S64, .f32⟩
  | .local _ .vmem, ⟨13, _⟩ => ⟨S64, .f32⟩
  | .local _ .vmem, ⟨14, _⟩ => ⟨S16000x64, .f32⟩
  | .local _ .vmem, ⟨15, _⟩ => ⟨S16000x64, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S16000x64_S16000x64_0_0 : ∀ a, (![0, 0] : Fin 2 → Nat) a + S16000x64.size a ≤ S16000x64.size a
  h_S16000x64 : 0 < S16000x64.numel
  reduces_S16000x64_S16000 : S16000x64.Reduces [1] S16000
  shapeCasts_S16000_S16000x1 : S16000.ShapeCasts S16000x1
  inb_S16000x1_S16000x1_0_0 : ∀ a, (![0, 0] : Fin 2 → Nat) a + S16000x1.size a ≤ S16000x1.size a
  h_S16000x1 : 0 < S16000x1.numel
  shapeCasts_S1600000x1_S1600000 : S1600000x1.ShapeCasts S1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S16000x1_S16000x1 : S16000x1.ShapeCasts S16000x1
  inb_S64_S64_0 : ∀ a, (![0] : Fin 1 → Nat) a + S64.size a ≤ S64.size a
  h_S64 : 0 < S64.numel
  broadcasts_S16000x1_S16000x64 : S16000x1.Broadcasts S16000x64
  shapeCasts_S64_S1x64 : S64.ShapeCasts S1x64
  broadcasts_S1x64_S16000x64 : S1x64.Broadcasts S16000x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S1600000x1.size a
  hwx0_1 : ∀ i : grid0.Coords, EltTy.bits .f32 = 32 ∨ (Rect.block (s := S1600000x1) S16000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x1.size a ≤ S1600000x1.size a
  hwx0_2 : ∀ i : grid0.Coords, EltTy.bits .f32 = 32 ∨ (Rect.block (s := S1600000x1) S16000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .f32 = 32 ∨ (Rect.block (s := S1600000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S1600000x1.size a
  hwx1_1 : ∀ i : grid1.Coords, EltTy.bits .f32 = 32 ∨ (Rect.block (s := S1600000x1) S16000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x1.size a ≤ S1600000x1.size a
  hwx1_2 : ∀ i : grid1.Coords, EltTy.bits .f32 = 32 ∨ (Rect.block (s := S1600000x1) S16000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x64.size a ≤ S1600000x64.size a
  hwx1_5 : ∀ i : grid1.Coords, EltTy.bits .f32 = 32 ∨ (Rect.block (s := S1600000x64) S16000x64.size (cc1_transform_5 i) (hinb1_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf

abbrev win0_0 : Pipeline.Window sig grid0 :=
  Pipeline.Window.ofSpec (Memref.whole main_arg0) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S16000x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S16000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S16000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1600000x64 : Shape := ⟨2, ![1600000, 64]⟩
abbrev S64 : Shape := ⟨1, ![64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S64, .f32⟩
  | .hbm, ⟨2, _⟩ => ⟨S64, .f32⟩
  | .hbm, ⟨3, _⟩ => ⟨S1600000, .i32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S50000, .f32⟩
  | .hbm, ⟨8, _⟩ => ⟨S1600000x1, .i32⟩
  | .hbm, ⟨9, _⟩ => ⟨S50000, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S1600000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000, .f32⟩
  | .hbm, ⟨65, _⟩ => ⟨S1600000x1, .f32⟩
  | .hbm, ⟨66, _⟩ => ⟨S_, .f32⟩
  | .hbm, ⟨67, _⟩ => ⟨S1600000x1, .f32⟩
  | .hbm, ⟨68, _⟩ => ⟨S1600000x1, .f32⟩
  | .hbm, ⟨69, _⟩ => ⟨S1600000x64, .f32⟩
  | .hbm, ⟨70, _⟩ => ⟨S1600000x64, .f32⟩
  | .hbm, ⟨71, _⟩ => ⟨S1x64, .f32⟩
  | .hbm, ⟨72, _⟩ => ⟨S1600000x64, .f32⟩
  | .hbm, ⟨73, _⟩ => ⟨S1600000x64, .f32⟩
  | .hbm, ⟨74, _⟩ => ⟨S1x64, .f32⟩
  | .hbm, ⟨75, _⟩ => ⟨S1600000x64, .f32⟩
  | .hbm, ⟨76, _⟩ => ⟨S1600000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S1600000x1 : S_.BroadcastsInDim S1600000x1 (![] : Fin 0 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf

class Facts : Prop extends Facts₀ where

variable [Facts]
-- ==== Proof.LibKeepdims.lean ====
/-
  General lemmas for kernels that keep a reduced axis as a column (`sum(..., keepdims=True)`) and for moving a
  finite factor through a finite sum of extended reals.

  · `mul_sum_of_nonneg_of_ne_top`: on the extended reals `a · Σ f = Σ a · f` for a factor `0 ≤ a < ⊤`, with no condition
    on the terms (they may hold both infinities: scaling by a nonnegative real keeps each term's sign and infinity,
    and by zero the law is `0 = 0`).
  · `shapeCast_column`: an `[a]` vector viewed as the column `[a, 1]`, read at an entry.
  · `broadcastTo_column`: a column `[a, 1]` laid across `b` columns to `[a, b]`, read at an entry.
  · `rowSum`: the f32 lane sum of an `[n, w]` value over its second axis from the zero word, read at a row, as a
    sum over `Fin w`.
  Indices are built with `ValueIdx.ix1` / `ix2`, so every coordinate has a literal `Fin` type.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibKeepdims

open Idealize.ShloMosaic Idealize.ShloMosaic.ValueIdx

/-- A finite nonnegative extended real moves inside a finite sum of extended reals, whatever the terms are. -/
theorem mul_sum_of_nonneg_of_ne_top {ι : Type*} {a : EReal} (ha : 0 ≤ a) (ha' : a ≠ ⊤) (s : Finset ι) (f : ι → EReal) :
    a * ∑ k ∈ s, f k = ∑ k ∈ s, a * f k := by
  classical
  induction s using Finset.induction_on with
  | empty => simp
  | insert b s hb ih =>
    rw [Finset.sum_insert hb, Finset.sum_insert hb, EReal.left_distrib_of_nonneg_of_ne_top ha ha', ih]

/-- An `[a]` vector cast to the column `[a, 1]` reads, at `(i, u)`, the vector at `i`. -/
theorem shapeCast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry `p`. -/
theorem broadcastTo_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 lane sum of an `[n, w]` value over its second axis, from the zero word, at row `p`: the sum of that row's
    `w` entries. (Apply it in term mode — `refine (rowSum …).trans ?_`, `congrArg` — against a printed payload: the
    printed proof arguments are spelt differently from a lemma's, which `rw` and `simp` do not see through.) -/
theorem rowSum {n w : ℕ} (v : FVec Ideal (⟨2, ![n, w]⟩ : Shape) .f32) (h : Shape.Reduces (⟨2, ![n, w]⟩ : Shape) [1] (⟨1, ![n]⟩ : Shape))
    (hφ : FKind.Formats .f32) (hacc : (0x00000000#32 : BitVec 32) = FKind.add.neutral .f32 hφ) (p : Fin n) :
    multiReduction .add [1] (⟨1, ![n]⟩ : Shape) v 0x00000000#32 h hφ hacc (ix1 p) = ∑ d : Fin w, v (ix2 p d) := by
  refine (Ideal.multiReduction_add_single v _ h hφ hacc (ix1 p)).trans ?_
  exact Finset.sum_congr rfl fun d _ => congrArg v (funext fun a => Fin.ext (by match a with | ⟨0, _⟩ => rfl | ⟨1, _⟩ => rfl))

end Cert.LibKeepdims

end
-- ==== Proof.Payload.lean ====
/-
  The two kernel bodies' stored values, read at an entry, over the extended reals.

  The reducing body stores, for each of its 16000 rows, the sum of the row's 64 entries and the sum of their
  squares, each kept as a one-column block. The normalising body stores, at row p and lane q,
      gamma q * ((e (p, q) - mean p) / (std p + eps)) + beta q,
  where mean and std arrive as one-column blocks and gamma and beta as 64-lane vectors laid over every row.
-/
import proofs.«179343_j11209864643250_1_alg».proof.Proof.Gen.KernelIdeal.Skeleton
import proofs.«179343_j11209864643250_1_alg».proof.Proof.LibKeepdims
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The small constant added to the standard deviation, as the extended real its word encodes. -/
abbrev eps : EReal := Ideal.ofBits .f32 0x3727C5AC#32

/-- The first stored column holds each row's sum. -/
theorem rowsum_entry (x : Vec Ideal S16000x64 .f32) (p : Fin 16000) (u : Fin 1) :
    k0_pay1 (F := Ideal) x (ix2 p u) = ∑ d : Fin 64, x (ix2 p d) := by
  unfold k0_pay1
  refine (Cert.LibKeepdims.shapeCast_column _ _ p u).trans ?_
  exact Cert.LibKeepdims.rowSum x _ _ _ p

/-- The second stored column holds each row's sum of squares. -/
theorem rowsumsq_entry (x : Vec Ideal S16000x64 .f32) (p : Fin 16000) (u : Fin 1) :
    k0_pay2 (F := Ideal) x (ix2 p u) = ∑ d : Fin 64, x (ix2 p d) * x (ix2 p d) := by
  unfold k0_pay2
  refine (Cert.LibKeepdims.shapeCast_column _ _ p u).trans ?_
  exact Cert.LibKeepdims.rowSum (mulf x x) _ _ _ p

/-- The normalising body's stored value at row p, lane q. -/
theorem norm_entry (x0 : Vec Ideal S16000x64 .f32) (x1 x2 : Vec Ideal S16000x1 .f32) (x3 x4 : Vec Ideal S64 .f32)
    (p : Fin 16000) (q : Fin 64) :
    k1_pay1 (F := Ideal) x0 x1 x2 x3 x4 (ix2 p q)
      = x3 (ix1 q) * Ideal.div (x0 (ix2 p q) - x1 (ix2 p (0 : Fin 1))) (x2 (ix2 p (0 : Fin 1)) + eps) + x4 (ix1 q) := by
  unfold k1_pay1
  have hg : ∀ (x : Vec Ideal S64 .f32) h1 h2, broadcastTo S16000x64 (shapeCast S1x64 x h1) h2 (ix2 p q) = x (ix1 q) :=
    fun x h1 h2 => (broadcastTo_1b_ab_apply _ h2 p q).trans (shapeCast_a_1a_apply x h1 0 q)
  have hc : ∀ (x : Vec Ideal S16000x1 .f32) h2, broadcastTo S16000x64 x h2 (ix2 p q) = x (ix2 p (0 : Fin 1)) :=
    fun x h2 => Cert.LibKeepdims.broadcastTo_column x h2 p q
  simp only [addf_apply, mulf_apply, subf_apply, divf_apply, hg, hc, shapeCast_self, broadcast_apply]
  rfl

/-! The same three facts at an arbitrary index of the stored block, its coordinates taken apart. -/

theorem rowsum_at (x : Vec Ideal S16000x64 .f32) (y : S16000x1.Idx) :
    k0_pay1 (F := Ideal) x y = ∑ d : Fin 64, x (ix2 (⟨(y 0).val, idx2_lt0 y⟩ : Fin 16000) d) := by
  obtain ⟨p, u, rfl⟩ : ∃ (p : Fin 16000) (u : Fin 1), y = ix2 p u := ⟨y 0, y 1, eq_ix2 y⟩
  exact rowsum_entry x p u

theorem rowsumsq_at (x : Vec Ideal S16000x64 .f32) (y : S16000x1.Idx) :
    k0_pay2 (F := Ideal) x y
      = ∑ d : Fin 64, x (ix2 (⟨(y 0).val, idx2_lt0 y⟩ : Fin 16000) d) * x (ix2 (⟨(y 0).val, idx2_lt0 y⟩ : Fin 16000) d) := by
  obtain ⟨p, u, rfl⟩ : ∃ (p : Fin 16000) (u : Fin 1), y = ix2 p u := ⟨y 0, y 1, eq_ix2 y⟩
  exact rowsumsq_entry x p u

theorem norm_at (x0 : Vec Ideal S16000x64 .f32) (x1 x2 : Vec Ideal S16000x1 .f32) (x3 x4 : Vec Ideal S64 .f32)
    (y : S16000x64.Idx) :
    k1_pay1 (F := Ideal) x0 x1 x2 x3 x4 y
      = x3 (ix1 (⟨(y 1).val, idx2_lt1 y⟩ : Fin 64))
          * Ideal.div (x0 y - x1 (ix2 (⟨(y 0).val, idx2_lt0 y⟩ : Fin 16000) (0 : Fin 1)))
              (x2 (ix2 (⟨(y 0).val, idx2_lt0 y⟩ : Fin 16000) (0 : Fin 1)) + eps)
        + x4 (ix1 (⟨(y 1).val, idx2_lt1 y⟩ : Fin 64)) := by
  obtain ⟨p, q, rfl⟩ : ∃ (p : Fin 16000) (q : Fin 64), y = ix2 p q := ⟨y 0, y 1, eq_ix2 y⟩
  exact norm_entry x0 x1 x2 x3 x4 p q

end Cert.KernelIdeal.Payload

end
-- ==== Proof.Blocks.lean ====
/-
  The two kernel regions as whole-array facts, at any contents V a region is entered from.

  Either grid has 100 points; point t works on rows 16000 t … 16000 t + 15999. The reducing kernel reads those rows of
  the edge array and writes the same rows of two one-column arrays: each row's sum and each row's sum of squares. The
  normalising kernel reads those rows of the edge array, of a one-column array of means and of a one-column array of
  standard deviations, and the whole 64-lane scale and shift vectors, and writes the same rows of the result. In both
  the 100 blocks tile the 1,600,000 rows, so after a region each output array is one function of the arrays the region
  found, entry by entry.
-/
import proofs.«179343_j11209864643250_1_alg».proof.Proof.Gen.KernelIdeal.Frame
import proofs.«179343_j11209864643250_1_alg».proof.Proof.Payload
import Idealize.ShloMosaic.Lib.Pipeline.Value

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The three whole-array functions -/

/-- Row i of the edge array summed over its 64 lanes, as a one-column array. -/
def sumCol (e : S1600000x64.Idx → EReal) : S1600000x1.Idx → EReal :=
  fun i => ∑ d : Fin 64, e (ix2 (⟨(i 0).val, idx2_lt0 i⟩ : Fin 1600000) d)

/-- Row i's squares summed over its 64 lanes, as a one-column array. -/
def sumsqCol (e : S1600000x64.Idx → EReal) : S1600000x1.Idx → EReal :=
  fun i => ∑ d : Fin 64, e (ix2 (⟨(i 0).val, idx2_lt0 i⟩ : Fin 1600000) d) * e (ix2 (⟨(i 0).val, idx2_lt0 i⟩ : Fin 1600000) d)

/-- The normalised edge array: at row r, lane q, the scale at q times (entry − mean of r) / (deviation of r + eps), plus
    the shift at q. -/
def normArr (e : S1600000x64.Idx → EReal) (mu sd : S1600000x1.Idx → EReal) (g b : S64.Idx → EReal) :
    S1600000x64.Idx → EReal :=
  fun i => g (ix1 (⟨(i 1).val, idx2_lt1 i⟩ : Fin 64))
      * Ideal.div (e i - mu (ix2 (⟨(i 0).val, idx2_lt0 i⟩ : Fin 1600000) (0 : Fin 1)))
          (sd (ix2 (⟨(i 0).val, idx2_lt0 i⟩ : Fin 1600000) (0 : Fin 1)) + eps)
    + b (ix1 (⟨(i 1).val, idx2_lt1 i⟩ : Fin 64))

theorem sumCol_apply (e : S1600000x64.Idx → EReal) (r : Fin 1600000) (u : Fin 1) :
    sumCol e (ix2 r u) = ∑ d : Fin 64, e (ix2 r d) := rfl

theorem sumsqCol_apply (e : S1600000x64.Idx → EReal) (r : Fin 1600000) (u : Fin 1) :
    sumsqCol e (ix2 r u) = ∑ d : Fin 64, e (ix2 r d) * e (ix2 r d) := rfl

theorem normArr_apply (e : S1600000x64.Idx → EReal) (mu sd : S1600000x1.Idx → EReal) (g b : S64.Idx → EReal)
    (r : Fin 1600000) (q : Fin 64) :
    normArr e mu sd g b (ix2 r q)
      = g (ix1 q) * Ideal.div (e (ix2 r q) - mu (ix2 r (0 : Fin 1))) (sd (ix2 r (0 : Fin 1)) + eps) + b (ix1 q) := rfl

/-! ## Region 0: the reducing kernel -/

/-- Every window of the reducing kernel is at block row t, block column 0, at point t. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The edge block at point t, entry (p, q), is the edge array at row 16000 t + p, lane q. -/
theorem edge_block0 (c : Dev nD) (t : Fin cfg0.N) (p : Fin 16000) (q : Fin 64) (r : Fin 1600000)
    (hr : r.val = t.val * 16000 + p.val) :
    (iblk0 V c 0 t : Vec Ideal S16000x64 .f32) (ix2 p q) = (V c main_arg0 : S1600000x64.Idx → EReal) (ix2 r q) := by
  obtain ⟨ea, eb, -⟩ := idx0 t
  unfold iblk0
  rw [View.read_apply]
  show V c main_arg0 _ = V c main_arg0 _
  congr 1
  funext a
  apply Fin.ext
  match a with
  | ⟨0, _⟩ => show win0_0.index t (0 : Fin 2) * 16000 + 1 * p.val = r.val; rw [ea, hr]; omega
  | ⟨1, _⟩ => show win0_0.index t (1 : Fin 2) * 64 + 1 * q.val = q.val; rw [eb]; omega

/-- What point t writes back to the first output is block t of the row sums. -/
theorem flushed0_1 (c : Dev nD) (t : Fin cfg0.N) :
    (dat0 V c).flushed 1 t = ((cfg0.win 1).blk t).view.read (Elt Ideal) (sumCol (V c main_arg0)) := by
  show (cfg0.win 1).cut (grid0.coords t) ((dat0 V c).after 1 t) = _
  rw [after0_1]
  unfold out0_1
  rw [View.canon_unit_zero hz]
  simp only [View.ld_unit_zero (S := S16000x64) hz]
  funext j
  rw [View.read_apply]
  obtain ⟨-, -, ea, eb, -⟩ := idx0 t
  have hN : cfg0.N = 100 := N_0
  have ht := t.isLt
  have hp : (j 0).val < 16000 := idx2_lt0 ((cfg0.win 1).xinj (grid0.coords t) j)
  have hu : (j 1).val < 1 := idx2_lt1 ((cfg0.win 1).xinj (grid0.coords t) j)
  have ha : (cfg0.win 1).xinj (grid0.coords t) j = ix2 (⟨(j 0).val, hp⟩ : Fin 16000) (⟨(j 1).val, hu⟩ : Fin 1) :=
    funext fun a => match a with | ⟨0, _⟩ => rfl | ⟨1, _⟩ => rfl
  have hb : ((cfg0.win 1).blk t).view.emb j
      = ix2 (⟨t.val * 16000 + (j 0).val, by omega⟩ : Fin 1600000) (⟨(j 1).val, hu⟩ : Fin 1) :=
    funext fun a => Fin.ext (match a with
      | ⟨0, _⟩ => by show win0_1.index t (0 : Fin 2) * 16000 + 1 * (j 0).val = t.val * 16000 + (j 0).val; rw [ea]; omega
      | ⟨1, _⟩ => by show win0_1.index t (1 : Fin 2) * 1 + 1 * (j 1).val = (j 1).val; rw [eb]; omega)
  show k0_pay1 (iblk0 V c 0 t) ((cfg0.win 1).xinj (grid0.coords t) j) = sumCol (V c main_arg0) (((cfg0.win 1).blk t).view.emb j)
  rw [ha, hb, rowsum_entry, sumCol_apply]
  exact Finset.sum_congr rfl fun d _ => edge_block0 V c t _ d _ rfl

/-- What point t writes back to the second output is block t of the row sums of squares. -/
theorem flushed0_2 (c : Dev nD) (t : Fin cfg0.N) :
    (dat0 V c).flushed 2 t = ((cfg0.win 2).blk t).view.read (Elt Ideal) (sumsqCol (V c main_arg0)) := by
  show (cfg0.win 2).cut (grid0.coords t) ((dat0 V c).after 2 t) = _
  rw [after0_2]
  unfold out0_2
  rw [View.canon_unit_zero hz]
  simp only [View.ld_unit_zero (S := S16000x64) hz]
  funext j
  rw [View.read_apply]
  obtain ⟨-, -, -, -, ea, eb⟩ := idx0 t
  have hN : cfg0.N = 100 := N_0
  have ht := t.isLt
  have hp : (j 0).val < 16000 := idx2_lt0 ((cfg0.win 2).xinj (grid0.coords t) j)
  have hu : (j 1).val < 1 := idx2_lt1 ((cfg0.win 2).xinj (grid0.coords t) j)
  have ha : (cfg0.win 2).xinj (grid0.coords t) j = ix2 (⟨(j 0).val, hp⟩ : Fin 16000) (⟨(j 1).val, hu⟩ : Fin 1) :=
    funext fun a => match a with | ⟨0, _⟩ => rfl | ⟨1, _⟩ => rfl
  have hb : ((cfg0.win 2).blk t).view.emb j
      = ix2 (⟨t.val * 16000 + (j 0).val, by omega⟩ : Fin 1600000) (⟨(j 1).val, hu⟩ : Fin 1) :=
    funext fun a => Fin.ext (match a with
      | ⟨0, _⟩ => by show win0_2.index t (0 : Fin 2) * 16000 + 1 * (j 0).val = t.val * 16000 + (j 0).val; rw [ea]; omega
      | ⟨1, _⟩ => by show win0_2.index t (1 : Fin 2) * 1 + 1 * (j 1).val = (j 1).val; rw [eb]; omega)
  show k0_pay2 (iblk0 V c 0 t) ((cfg0.win 2).xinj (grid0.coords t) j) = sumsqCol (V c main_arg0) (((cfg0.win 2).blk t).view.emb j)
  rw [ha, hb, rowsumsq_entry, sumsqCol_apply]
  exact Finset.sum_congr rfl fun d _ =>
    congrArg₂ (· * ·) (edge_block0 V c t _ d _ rfl) (edge_block0 V c t _ d _ rfl)

/-- An index of a one-column array lies in point t's block of output window 1 iff each coordinate is in the block's range. -/
theorem mem_blk0_1 (t : Fin cfg0.N) (i : S1600000x1.Idx) :
    i ∈ ((cfg0.win 1).blk t).view.set ↔ ∀ a : Fin 2, win0_1.index t a * S16000x1.size a ≤ (i a).val ∧ (i a).val < win0_1.index t a * S16000x1.size a + S16000x1.size a := by
  show i ∈ ((View.whole main_v0_0).slice (win0_1.rect t)).set ↔ _
  rw [View.set_slice_whole, Rect.mem_set_unit]
  exact Iff.rfl

theorem mem_blk0_2 (t : Fin cfg0.N) (i : S1600000x1.Idx) :
    i ∈ ((cfg0.win 2).blk t).view.set ↔ ∀ a : Fin 2, win0_2.index t a * S16000x1.size a ≤ (i a).val ∧ (i a).val < win0_2.index t a * S16000x1.size a + S16000x1.size a := by
  show i ∈ ((View.whole main_v0_1).slice (win0_2.rect t)).set ↔ _
  rw [View.set_slice_whole, Rect.mem_set_unit]
  exact Iff.rfl

/-- Row r is in the block of point r / 16000. -/
theorem cover0_1 (i : S1600000x1.Idx) :
    ∃ t : Fin cfg0.N, (cfg0.win 1).flush t = true ∧ i ∈ ((cfg0.win 1).blk t).view.set := by
  have hi0 : (i 0).val < 1600000 := idx2_lt0 i
  have hi1 : (i 1).val < 1 := idx2_lt1 i
  have hN : cfg0.N = 100 := N_0
  obtain ⟨t, ht⟩ : ∃ t : Fin cfg0.N, t.val = (i 0).val / 16000 := ⟨⟨(i 0).val / 16000, by omega⟩, rfl⟩
  obtain ⟨-, -, e2, e3, -⟩ := idx0 t
  refine ⟨t, flush0_1 t, ?_⟩
  rw [mem_blk0_1]
  intro a
  match a with
  | ⟨0, _⟩ => show win0_1.index t (0 : Fin 2) * 16000 ≤ (i 0).val ∧ (i 0).val < win0_1.index t (0 : Fin 2) * 16000 + 16000; rw [e2, ht]; omega
  | ⟨1, _⟩ => show win0_1.index t (1 : Fin 2) * 1 ≤ (i 1).val ∧ (i 1).val < win0_1.index t (1 : Fin 2) * 1 + 1; rw [e3]; omega

theorem cover0_2 (i : S1600000x1.Idx) :
    ∃ t : Fin cfg0.N, (cfg0.win 2).flush t = true ∧ i ∈ ((cfg0.win 2).blk t).view.set := by
  have hi0 : (i 0).val < 1600000 := idx2_lt0 i
  have hi1 : (i 1).val < 1 := idx2_lt1 i
  have hN : cfg0.N = 100 := N_0
  obtain ⟨t, ht⟩ : ∃ t : Fin cfg0.N, t.val = (i 0).val / 16000 := ⟨⟨(i 0).val / 16000, by omega⟩, rfl⟩
  obtain ⟨-, -, -, -, e4, e5⟩ := idx0 t
  refine ⟨t, flush0_2 t, ?_⟩
  rw [mem_blk0_2]
  intro a
  match a with
  | ⟨0, _⟩ => show win0_2.index t (0 : Fin 2) * 16000 ≤ (i 0).val ∧ (i 0).val < win0_2.index t (0 : Fin 2) * 16000 + 16000; rw [e4, ht]; omega
  | ⟨1, _⟩ => show win0_2.index t (1 : Fin 2) * 1 ≤ (i 1).val ∧ (i 1).val < win0_2.index t (1 : Fin 2) * 1 + 1; rw [e5]; omega

/-- After region 0 its first output array holds every row's sum … -/
theorem sums_after (c : Dev nD) : (dat0 V c).arrAt 1 cfg0.N = sumCol (V c main_arg0) :=
  (dat0 V c).arrAt_eq_of_cover 1 (sumCol (V c main_arg0)) (fun t _ => flushed0_1 V c t) cover0_1

/-- … and its second every row's sum of squares. -/
theorem sumsqs_after (c : Dev nD) : (dat0 V c).arrAt 2 cfg0.N = sumsqCol (V c main_arg0) :=
  (dat0 V c).arrAt_eq_of_cover 2 (sumsqCol (V c main_arg0)) (fun t _ => flushed0_2 V c t) cover0_2

/-! ## Region 1: the normalising kernel -/

/-- The row windows of the normalising kernel are at block row t, block column 0; the two vector windows at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

theorem edge_block1 (c : Dev nD) (t : Fin cfg1.N) (p : Fin 16000) (q : Fin 64) (r : Fin 1600000)
    (hr : r.val = t.val * 16000 + p.val) :
    (iblk1 V c 0 t : Vec Ideal S16000x64 .f32) (ix2 p q) = (V c main_arg0 : S1600000x64.Idx → EReal) (ix2 r q) := by
  obtain ⟨ea, eb, -⟩ := idx1 t
  unfold iblk1
  rw [View.read_apply]
  show V c main_arg0 _ = V c main_arg0 _
  congr 1
  funext a
  apply Fin.ext
  match a with
  | ⟨0, _⟩ => show win1_0.index t (0 : Fin 2) * 16000 + 1 * p.val = r.val; rw [ea, hr]; omega
  | ⟨1, _⟩ => show win1_0.index t (1 : Fin 2) * 64 + 1 * q.val = q.val; rw [eb]; omega

theorem mean_block1 (c : Dev nD) (t : Fin cfg1.N) (p : Fin 16000) (q : Fin 1) (r : Fin 1600000)
    (hr : r.val = t.val * 16000 + p.val) :
    (iblk1 V c 1 t : Vec Ideal S16000x1 .f32) (ix2 p q) = (V c main_v36 : S1600000x1.Idx → EReal) (ix2 r q) := by
  obtain ⟨-, -, ea, eb, -⟩ := idx1 t
  unfold iblk1
  rw [View.read_apply]
  show V c main_v36 _ = V c main_v36 _
  congr 1
  funext a
  apply Fin.ext
  match a with
  | ⟨0, _⟩ => show win1_1.index t (0 : Fin 2) * 16000 + 1 * p.val = r.val; rw [ea, hr]; omega
  | ⟨1, _⟩ => show win1_1.index t (1 : Fin 2) * 1 + 1 * q.val = q.val; rw [eb]; omega

theorem dev_block1 (c : Dev nD) (t : Fin cfg1.N) (p : Fin 16000) (q : Fin 1) (r : Fin 1600000)
    (hr : r.val = t.val * 16000 + p.val) :
    (iblk1 V c 2 t : Vec Ideal S16000x1 .f32) (ix2 p q) = (V c main_v44 : S1600000x1.Idx → EReal) (ix2 r q) := by
  obtain ⟨-, -, -, -, ea, eb, -⟩ := idx1 t
  unfold iblk1
  rw [View.read_apply]
  show V c main_v44 _ = V c main_v44 _
  congr 1
  funext a
  apply Fin.ext
  match a with
  | ⟨0, _⟩ => show win1_2.index t (0 : Fin 2) * 16000 + 1 * p.val = r.val; rw [ea, hr]; omega
  | ⟨1, _⟩ => show win1_2.index t (1 : Fin 2) * 1 + 1 * q.val = q.val; rw [eb]; omega

theorem scale_block1 (c : Dev nD) (t : Fin cfg1.N) (q : Fin 64) :
    (iblk1 V c 3 t : Vec Ideal S64 .f32) (ix1 q) = (V c main_arg1 : S64.Idx → EReal) (ix1 q) := by
  obtain ⟨-, -, -, -, -, -, ea, -⟩ := idx1 t
  unfold iblk1
  rw [View.read_apply]
  show V c main_arg1 _ = V c main_arg1 _
  congr 1
  funext a
  apply Fin.ext
  match a with
  | ⟨0, _⟩ => show win1_3.index t (0 : Fin 1) * 64 + 1 * q.val = q.val; rw [ea]; omega

theorem shift_block1 (c : Dev nD) (t : Fin cfg1.N) (q : Fin 64) :
    (iblk1 V c 4 t : Vec Ideal S64 .f32) (ix1 q) = (V c main_arg2 : S64.Idx → EReal) (ix1 q) := by
  obtain ⟨-, -, -, -, -, -, -, ea, -⟩ := idx1 t
  unfold iblk1
  rw [View.read_apply]
  show V c main_arg2 _ = V c main_arg2 _
  congr 1
  funext a
  apply Fin.ext
  match a with
  | ⟨0, _⟩ => show win1_4.index t (0 : Fin 1) * 64 + 1 * q.val = q.val; rw [ea]; omega

/-- What point t writes back is block t of the normalised array of the five arrays the region found. -/
theorem flushed1_5 (c : Dev nD) (t : Fin cfg1.N) :
    (dat1 V c).flushed 5 t = ((cfg1.win 5).blk t).view.read (Elt Ideal)
      (normArr (V c main_arg0) (V c main_v36) (V c main_v44) (V c main_arg1) (V c main_arg2)) := by
  show (cfg1.win 5).cut (grid1.coords t) ((dat1 V c).after 5 t) = _
  rw [after1_5]
  unfold out1_5
  rw [View.canon_unit_zero hz]
  simp only [View.ld_unit_zero (S := S16000x64) hz, View.ld_unit_zero (S := S16000x1) hz, View.ld_unit_zero (S := S64) hz1]
  funext j
  rw [View.read_apply]
  obtain ⟨-, -, -, -, -, -, -, -, ea, eb⟩ := idx1 t
  have hN : cfg1.N = 100 := N_1
  have ht := t.isLt
  have hp : (j 0).val < 16000 := idx2_lt0 ((cfg1.win 5).xinj (grid1.coords t) j)
  have hu : (j 1).val < 64 := idx2_lt1 ((cfg1.win 5).xinj (grid1.coords t) j)
  have ha : (cfg1.win 5).xinj (grid1.coords t) j = ix2 (⟨(j 0).val, hp⟩ : Fin 16000) (⟨(j 1).val, hu⟩ : Fin 64) :=
    funext fun a => match a with | ⟨0, _⟩ => rfl | ⟨1, _⟩ => rfl
  have hb : ((cfg1.win 5).blk t).view.emb j
      = ix2 (⟨t.val * 16000 + (j 0).val, by omega⟩ : Fin 1600000) (⟨(j 1).val, hu⟩ : Fin 64) :=
    funext fun a => Fin.ext (match a with
      | ⟨0, _⟩ => by show win1_5.index t (0 : Fin 2) * 16000 + 1 * (j 0).val = t.val * 16000 + (j 0).val; rw [ea]; omega
      | ⟨1, _⟩ => by show win1_5.index t (1 : Fin 2) * 64 + 1 * (j 1).val = (j 1).val; rw [eb]; omega)
  show k1_pay1 (iblk1 V c 0 t) (iblk1 V c 1 t) (iblk1 V c 2 t) (iblk1 V c 3 t) (iblk1 V c 4 t) ((cfg1.win 5).xinj (grid1.coords t) j)
    = normArr (V c main_arg0) (V c main_v36) (V c main_v44) (V c main_arg1) (V c main_arg2) (((cfg1.win 5).blk t).view.emb j)
  rw [ha, hb, norm_entry, normArr_apply, scale_block1 V c t, shift_block1 V c t,
    edge_block1 V c t ⟨(j 0).val, hp⟩ ⟨(j 1).val, hu⟩ (⟨t.val * 16000 + (j 0).val, by omega⟩ : Fin 1600000) rfl,
    mean_block1 V c t ⟨(j 0).val, hp⟩ (0 : Fin 1) (⟨t.val * 16000 + (j 0).val, by omega⟩ : Fin 1600000) rfl,
    dev_block1 V c t ⟨(j 0).val, hp⟩ (0 : Fin 1) (⟨t.val * 16000 + (j 0).val, by omega⟩ : Fin 1600000) rfl]

theorem mem_blk1_5 (t : Fin cfg1.N) (i : S1600000x64.Idx) :
    i ∈ ((cfg1.win 5).blk t).view.set ↔ ∀ a : Fin 2, win1_5.index t a * S16000x64.size a ≤ (i a).val ∧ (i a).val < win1_5.index t a * S16000x64.size a + S16000x64.size a := by
  show i ∈ ((View.whole main_v45).slice (win1_5.rect t)).set ↔ _
  rw [View.set_slice_whole, Rect.mem_set_unit]
  exact Iff.rfl

theorem cover1_5 (i : S1600000x64.Idx) :
    ∃ t : Fin cfg1.N, (cfg1.win 5).flush t = true ∧ i ∈ ((cfg1.win 5).blk t).view.set := by
  have hi0 : (i 0).val < 1600000 := idx2_lt0 i
  have hi1 : (i 1).val < 64 := idx2_lt1 i
  have hN : cfg1.N = 100 := N_1
  obtain ⟨t, ht⟩ : ∃ t : Fin cfg1.N, t.val = (i 0).val / 16000 := ⟨⟨(i 0).val / 16000, by omega⟩, rfl⟩
  obtain ⟨-, -, -, -, -, -, -, -, e8, e9⟩ := idx1 t
  refine ⟨t, flush1_5 t, ?_⟩
  rw [mem_blk1_5]
  intro a
  match a with
  | ⟨0, _⟩ => show win1_5.index t (0 : Fin 2) * 16000 ≤ (i 0).val ∧ (i 0).val < win1_5.index t (0 : Fin 2) * 16000 + 16000; rw [e8, ht]; omega
  | ⟨1, _⟩ => show win1_5.index t (1 : Fin 2) * 64 ≤ (i 1).val ∧ (i 1).val < win1_5.index t (1 : Fin 2) * 64 + 64; rw [e9]; omega

/-- After region 1 its output array holds the normalised array of the five arrays the region found. -/
theorem norm_after (c : Dev nD) : (dat1 V c).arrAt 5 cfg1.N
    = normArr (V c main_arg0) (V c main_v36) (V c main_v44) (V c main_arg1) (V c main_arg2) :=
  (dat1 V c).arrAt_eq_of_cover 5 _ (fun t _ => flushed1_5 V c t) cover1_5

end Cert.KernelIdeal.Blocks

end
-- ==== Proof.LibColumn.lean ====
/-
  Column reads. A matrix `K` of shape [a, 32] enters the pairwise-distance loop one COLUMN at a time: the kernel slices
  column `h` out as an [a, 1] array, flattens it to a vector [a], and lays it either along the rows of a [b, a] matrix
  (every row the column) or down the columns of an [a, b] matrix (every column the column). This module reads each of
  those layout steps at an entry, so that the whole chain, at entry (p, n), is the entry `K (n, h)` resp. `K (p, h)`.
  The column number is a natural number in the printed offsets; it is read modulo 32 so that the entry is a total
  function of it (a slice that fits has `h < 32`, where `h % 32 = h`).
-/
import Idealize.ShloMosaic.Lib.Pipeline.Value
import Idealize.ShloMosaic.Lib.ValueIdx
import Idealize.ShloMosaic.Lib.ValueLayout

namespace Cert.Laplace

open Idealize.ShloMosaic Idealize.ShloMosaic.ValueIdx

variable {α : Type}

/-- A column [a, 1] flattened to a vector [a] reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] stood up as a column [a, 1] reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] repeated across `b` columns reads, at `(p, c)`, the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-column slice that fits inside 32 columns starts below 32. -/
theorem col_lt {a h : ℕ} (hs : (⟨2, ![a, 32]⟩ : Shape).Slices ![0, h] ⟨2, ![a, 1]⟩) : h < 32 := by
  have h1 : h + 1 ≤ 32 := hs.2 1
  omega

/-- Column `h` of a matrix with 32 columns, sliced out as [a, 1], reads at `(n, u)` the matrix's entry `(n, h)`. -/
theorem slice_col_apply {a : ℕ} (h : ℕ) (K : (⟨2, ![a, 32]⟩ : Shape).Idx → α)
    (hs : (⟨2, ![a, 32]⟩ : Shape).Slices ![0, h] ⟨2, ![a, 1]⟩) (n : Fin a) (u : Fin 1) :
    extractStridedSlice ⟨2, ![a, 1]⟩ ![0, h] K hs (ix2 n u) = K (ix2 n ⟨h % 32, Nat.mod_lt _ (by decide)⟩) :=
  slice2_axis1_apply h K hs n u _ (by
    have := col_lt hs
    show h % 32 = h + u.val
    omega)

end Cert.Laplace
-- ==== Proof.RefNorm.lean ====
/-
  The reference, read at an entry.

  Its row sums and row sums of squares are the two one-column functions the reducing kernel leaves, flattened; and its
  result, at row r and lane q, is the scale at q times (entry − mean of r) / (deviation of r + eps) plus the shift at
  q, where the mean and deviation columns are the reference's own gathered per-node statistics. The statistics
  themselves (the scatter-adds by destination node, the quotients, the square root, the gathers) are never opened.
-/
import proofs.«179343_j11209864643250_1_alg».proof.Proof.Blocks
import proofs.«179343_j11209864643250_1_alg».proof.Proof.Gen.ReferenceIdeal.Read
import proofs.«179343_j11209864643250_1_alg».proof.Proof.LibColumn
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.KernelIdeal.Blocks (sumCol sumsqCol normArr normArr_apply sumCol_apply sumsqCol_apply)
open Cert.KernelIdeal.Payload (eps)

/-- The reference's sum over the lanes, at row r. -/
theorem rowsum_ref (e : S1600000x64.Idx → EReal) (r : Fin 1600000) :
    val_main_v6 (F := Ideal) e (ix1 r) = ∑ d : Fin 64, e (ix2 r d) := by
  rw [val_main_v6_apply, val_main_cst_2_apply, Ideal.ofBits_def, Ideal.ofBits_zero_f32, zero_add]
  exact Finset.sum_congr rfl fun k _ => congrArg e (funext fun a => match a with | ⟨0, _⟩ => rfl | ⟨1, _⟩ => rfl)

/-- The reference's sum of squares over the lanes, at row r. -/
theorem rowsumsq_ref (e : S1600000x64.Idx → EReal) (r : Fin 1600000) :
    val_main_v11 (F := Ideal) e (ix1 r) = ∑ d : Fin 64, e (ix2 r d) * e (ix2 r d) := by
  rw [val_main_v11_apply, val_main_cst_4_apply, Ideal.ofBits_def, Ideal.ofBits_zero_f32, zero_add]
  refine Finset.sum_congr rfl fun k _ => ?_
  rw [val_main_v10_apply]
  have hk : idx_main_v11 (ix1 r) k = ix2 r k := funext fun a => match a with | ⟨0, _⟩ => rfl | ⟨1, _⟩ => rfl
  rw [hk]
  rfl

/-- The kernel's column of row sums, flattened to a vector, is the reference's vector of row sums. -/
theorem flat_sums (e : S1600000x64.Idx → EReal) (h : S1600000x1.ShapeCasts S1600000) :
    (fun i => shapeCast S1600000 (sumCol e) h i) = val_main_v6 (F := Ideal) e := by
  funext i
  obtain ⟨r, rfl⟩ : ∃ r : Fin 1600000, i = ix1 r := ⟨i 0, eq_ix1 i⟩
  rw [rowsum_ref]
  exact (Cert.Laplace.shapeCast_a1_a_apply (sumCol e) h r).trans (sumCol_apply e r 0)

/-- The kernel's column of row sums of squares, flattened, is the reference's vector of row sums of squares. -/
theorem flat_sumsqs (e : S1600000x64.Idx → EReal) (h : S1600000x1.ShapeCasts S1600000) :
    (fun i => shapeCast S1600000 (sumsqCol e) h i) = val_main_v11 (F := Ideal) e := by
  funext i
  obtain ⟨r, rfl⟩ : ∃ r : Fin 1600000, i = ix1 r := ⟨i 0, eq_ix1 i⟩
  rw [rowsumsq_ref]
  exact (Cert.Laplace.shapeCast_a1_a_apply (sumsqCol e) h r).trans (sumsqCol_apply e r 0)

/-- The reference's result is the normalised array of its edge array, its own mean and deviation columns, and its
    scale and shift vectors. -/
theorem result_is_norm (x0 : S1600000x64.Idx → EReal) (x1 x2 : S64.Idx → EReal) (x3 : (⟨S1600000, .i32⟩ : BufTy).Contents (Elt Ideal)) :
    val_main_v56 (F := Ideal) x0 x1 x2 x3 = normArr x0 (val_main_v36 (F := Ideal) x0 x3) (val_main_v46 (F := Ideal) x0 x3) x1 x2 := by
  funext i
  obtain ⟨r, q, rfl⟩ : ∃ (r : Fin 1600000) (q : Fin 64), i = ix2 r q := ⟨i 0, i 1, eq_ix2 i⟩
  have h52 : idx_main_v52 (ix2 r q) = ix2 (0 : Fin 1) q := funext fun a => match a with | ⟨0, _⟩ => rfl | ⟨1, _⟩ => rfl
  have h55 : idx_main_v55 (ix2 r q) = ix2 (0 : Fin 1) q := funext fun a => match a with | ⟨0, _⟩ => rfl | ⟨1, _⟩ => rfl
  have h51 : idx_main_v51 (ix2 (0 : Fin 1) q) = ix1 q := funext fun a => match a with | ⟨0, _⟩ => rfl
  have h54 : idx_main_v54 (ix2 (0 : Fin 1) q) = ix1 q := funext fun a => match a with | ⟨0, _⟩ => rfl
  have h37 : idx_main_v37 (ix2 r q) = ix2 r (0 : Fin 1) := funext fun a => match a with | ⟨0, _⟩ => rfl | ⟨1, _⟩ => rfl
  have h49 : idx_main_v49 (ix2 r q) = ix2 r (0 : Fin 1) := funext fun a => match a with | ⟨0, _⟩ => rfl | ⟨1, _⟩ => rfl
  rw [normArr_apply, val_main_v56_apply, val_main_v53_apply, val_main_v52_apply, h52, val_main_v51_apply, h51,
    val_main_v50_apply, val_main_v38_apply, val_main_v37_apply, h37, val_main_v49_apply, h49, val_main_v48_apply,
    val_main_v47_apply, val_main_cst_13_apply, val_main_v55_apply, h55, val_main_v54_apply, h54]
  rfl

end Cert.ReferenceIdeal.RefValue

end
-- ==== Proof.Whole.lean ====
/-
  The kernel program as a whole: from the launch memory to the result array.

  Region 0 leaves the row sums and row sums of squares of the edge array. The host operations between the regions
  flatten the two columns, scatter-add them (and a vector of ones) by destination node, form each node's mean and
  deviation, and gather both back per edge as one-column arrays: the very operations the reference applies to its own
  row sums, so each column is the reference's column of the same arguments, the chain never opened. Region 1 then
  leaves the normalised array of the edge array, those two columns, and the scale and shift vectors.
-/
import proofs.«179343_j11209864643250_1_alg».proof.Proof.Gen.KernelIdeal.Frame
import proofs.«179343_j11209864643250_1_alg».proof.Proof.KernelRun
import proofs.«179343_j11209864643250_1_alg».proof.Proof.Blocks
import proofs.«179343_j11209864643250_1_alg».proof.Proof.RefNorm
import Idealize.ShloMosaic.Lib.StableHlo.Run

set_option maxRecDepth 16384

noncomputable section

namespace Cert.KernelIdeal.Whole

open Cert.KernelIdeal Cert.KernelIdeal.Gen Cert.KernelIdeal.Blocks
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## At region 0's exit -/

theorem sums_at_exit (c : Dev nD) :
    W1 m ρ c (Proc.devRef .tc main_v0_0) = sumCol (m ((c : Thread nD τ).loc main_arg0)) :=
  (W1_arr m ρ c 1).trans (sums_after (V0 m ρ) c)

theorem sumsqs_at_exit (c : Dev nD) :
    W1 m ρ c (Proc.devRef .tc main_v0_1) = sumsqCol (m ((c : Thread nD τ).loc main_arg0)) :=
  (W1_arr m ρ c 2).trans (sumsqs_after (V0 m ρ) c)

theorem edges_at_exit (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

theorem scale_at_exit (c : Dev nD) : W1 m ρ c (Proc.devRef .tc main_arg1) = m ((c : Thread nD τ).loc main_arg1) :=
  W1_of_ne m ρ c main_arg1 (by decide)

theorem shift_at_exit (c : Dev nD) : W1 m ρ c (Proc.devRef .tc main_arg2) = m ((c : Thread nD τ).loc main_arg2) :=
  W1_of_ne m ρ c main_arg2 (by decide)

theorem dst_at_exit (c : Dev nD) : W1 m ρ c (Proc.devRef .tc main_arg3) = m ((c : Thread nD τ).loc main_arg3) :=
  W1_of_ne m ρ c main_arg3 (by decide)

/-! ## At region 1's entry -/

theorem edges_at_entry (c : Dev nD) : V2 m ρ c main_arg0 = m ((c : Thread nD τ).loc main_arg0) := by
  dsimp only [V2, W2, hostOps1]
  after_results_simp
  exact edges_at_exit m ρ c

theorem scale_at_entry (c : Dev nD) : V2 m ρ c main_arg1 = m ((c : Thread nD τ).loc main_arg1) := by
  dsimp only [V2, W2, hostOps1]
  after_results_simp
  exact scale_at_exit m ρ c

theorem shift_at_entry (c : Dev nD) : V2 m ρ c main_arg2 = m ((c : Thread nD τ).loc main_arg2) := by
  dsimp only [V2, W2, hostOps1]
  after_results_simp
  exact shift_at_exit m ρ c

/-- The per-edge column of node means is the reference's, of the same edge array and destinations. -/
theorem mean_at_entry (c : Dev nD) : V2 m ρ c main_v36
    = Cert.ReferenceIdeal.Read.val_main_v36 (F := Ideal) (m ((c : Thread nD τ).loc main_arg0)) (m ((c : Thread nD τ).loc main_arg3)) := by
  dsimp only [V2, W2, hostOps1]
  after_results_simp
  rw [sums_at_exit, dst_at_exit]
  have hs : (fun i => shapeCast main_v1.ty.shape (sumCol (m ((c : Thread nD τ).loc main_arg0))) Facts₀.shapeCasts_S1600000x1_S1600000 i)
      = Cert.ReferenceIdeal.Read.val_main_v6 (F := Ideal) (m ((c : Thread nD τ).loc main_arg0)) := Cert.ReferenceIdeal.RefValue.flat_sums _ _
  rw [hs]
  rfl

/-- The per-edge column of node deviations is the reference's, of the same edge array and destinations. -/
theorem dev_at_entry (c : Dev nD) : V2 m ρ c main_v44
    = Cert.ReferenceIdeal.Read.val_main_v46 (F := Ideal) (m ((c : Thread nD τ).loc main_arg0)) (m ((c : Thread nD τ).loc main_arg3)) := by
  dsimp only [V2, W2, hostOps1]
  after_results_simp
  rw [sums_at_exit, sumsqs_at_exit, dst_at_exit]
  have hs : (fun i => shapeCast main_v1.ty.shape (sumCol (m ((c : Thread nD τ).loc main_arg0))) Facts₀.shapeCasts_S1600000x1_S1600000 i)
      = Cert.ReferenceIdeal.Read.val_main_v6 (F := Ideal) (m ((c : Thread nD τ).loc main_arg0)) := Cert.ReferenceIdeal.RefValue.flat_sums _ _
  have hq : (fun i => shapeCast main_v2.ty.shape (sumsqCol (m ((c : Thread nD τ).loc main_arg0))) Facts₀.shapeCasts_S1600000x1_S1600000 i)
      = Cert.ReferenceIdeal.Read.val_main_v11 (F := Ideal) (m ((c : Thread nD τ).loc main_arg0)) := Cert.ReferenceIdeal.RefValue.flat_sumsqs _ _
  rw [hs, hq]
  rfl

/-! ## The result -/

/-- The result array at the last boundary. -/
theorem result_value (c : Dev nD) : V3 m ρ c main_v45
    = normArr (m ((c : Thread nD τ).loc main_arg0))
        (Cert.ReferenceIdeal.Read.val_main_v36 (F := Ideal) (m ((c : Thread nD τ).loc main_arg0)) (m ((c : Thread nD τ).loc main_arg3)))
        (Cert.ReferenceIdeal.Read.val_main_v46 (F := Ideal) (m ((c : Thread nD τ).loc main_arg0)) (m ((c : Thread nD τ).loc main_arg3)))
        (m ((c : Thread nD τ).loc main_arg1)) (m ((c : Thread nD τ).loc main_arg2)) := by
  refine (W3_arr m ρ c 5).trans ?_
  rw [norm_after (V2 m ρ) c, mean_at_entry, dev_at_entry, edges_at_entry, scale_at_entry, shift_at_entry]

/-- Every weakly fair execution of the kernel program ends with the result array at the normalised array and the
    arguments as launched. -/
theorem run : θ_run defs (onTc (τ := τ) (main (F := Ideal))) ⟨m, fun _ => 0, ρ⟩ (fun r => ∀ c : Dev nD,
      r.2.mem ((c.tc : Thread nD τ).loc main_v45)
        = normArr (m ((c : Thread nD τ).loc main_arg0))
            (Cert.ReferenceIdeal.Read.val_main_v36 (F := Ideal) (m ((c : Thread nD τ).loc main_arg0)) (m ((c : Thread nD τ).loc main_arg3)))
            (Cert.ReferenceIdeal.Read.val_main_v46 (F := Ideal) (m ((c : Thread nD τ).loc main_arg0)) (m ((c : Thread nD τ).loc main_arg3)))
            (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩)
    (Cert.KernelIdeal.Result.run_result m ρ)

end Cert.KernelIdeal.Whole

end
-- ==== Proof.lean ====
/-
  Edge normalisation by destination node, kernel against reference, over the extended reals.

  Both programs take an edge array e [1600000, 64], a scale and a shift vector [64] and a destination node per edge,
  and return  scale q * ((e (r, q) - mean (r)) / (dev (r) + eps)) + shift q  at row r, lane q, where mean (r) and
  dev (r) are the mean and the unbiased deviation of all entries of the edges that share edge r's destination node.
  Those statistics are functions of two vectors only, the per-edge row sums and row sums of squares, and of the
  destinations: a scatter-add by node, a few pointwise operations on the 50000 nodes, and a gather back to the edges.

  The kernel program computes the two vectors of row sums in a first kernel region (100 blocks of 16000 rows), applies
  on the host the same scatter-adds, pointwise operations and gathers as the reference, and normalises in a second
  region (again 100 blocks of 16000 rows). So the proof has three parts: each region's output array is one function of
  the arrays the region found (Blocks); the row sums the first region leaves are the reference's own lane sums, hence
  the mean and deviation columns reaching the second region are the reference's columns, the shared chain carried as
  one unopened function of equal arguments (Whole, RefNorm); and the reference's last stages, read at an entry, are the
  same normalisation (RefNorm). No law of the extended reals is needed beyond 0 + x = x for the sums' initial value:
  both sides apply the same operations in the same order, so the precondition is never opened.
-/
import proofs.«179343_j11209864643250_1_alg».proof.Defs
import proofs.«179343_j11209864643250_1_alg».proof.Proof.Gen.Kernel
import proofs.«179343_j11209864643250_1_alg».proof.Proof.Gen.Kernel.Skeleton
import proofs.«179343_j11209864643250_1_alg».proof.Proof.Gen.Kernel.Launch
import proofs.«179343_j11209864643250_1_alg».proof.Proof.Gen.Kernel.Points
import proofs.«179343_j11209864643250_1_alg».proof.Proof.Gen.Kernel.Frame
import proofs.«179343_j11209864643250_1_alg».proof.Proof.Gen.KernelIdeal
import proofs.«179343_j11209864643250_1_alg».proof.Proof.Gen.KernelIdeal.Skeleton
import proofs.«179343_j11209864643250_1_alg».proof.Proof.Gen.KernelIdeal.Launch
import proofs.«179343_j11209864643250_1_alg».proof.Proof.Gen.KernelIdeal.Points
import proofs.«179343_j11209864643250_1_alg».proof.Proof.Gen.KernelIdeal.Frame
import proofs.«179343_j11209864643250_1_alg».proof.Proof.Gen.ReferenceIdeal
import proofs.«179343_j11209864643250_1_alg».proof.Proof.Gen.ReferenceIdeal.Run
import proofs.«179343_j11209864643250_1_alg».proof.Proof.Gen.ReferenceIdeal.Read
import proofs.«179343_j11209864643250_1_alg».proof.Proof.Gen.Pre_finite_inputs
import proofs.«179343_j11209864643250_1_alg».proof.Proof.Whole
import proofs.«179343_j11209864643250_1_alg».proof.Proof.RefNorm
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the normalised array of the edge array, the
    reference's mean and deviation columns, and the scale and shift vectors. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.result_is_norm,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
